-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x8x128 : Shape := ⟨3, ![2048, 8, 128]⟩
abbrev S2048x8 : Shape := ⟨2, ![2048, 8]⟩
abbrev S2048x8x1 : Shape := ⟨3, ![2048, 8, 1]⟩
abbrev S512x8x128 : Shape := ⟨3, ![512, 8, 128]⟩
abbrev S512x512 : Shape := ⟨2, ![512, 512]⟩
abbrev S512x1x128 : Shape := ⟨3, ![512, 1, 128]⟩
abbrev S512x128 : Shape := ⟨2, ![512, 128]⟩
abbrev S128x512 : Shape := ⟨2, ![128, 512]⟩
abbrev S2048x4x256 : Shape := ⟨3, ![2048, 4, 256]⟩
abbrev S2048x4 : Shape := ⟨2, ![2048, 4]⟩
abbrev S2048x4x1 : Shape := ⟨3, ![2048, 4, 1]⟩
abbrev S512x4x256 : Shape := ⟨3, ![512, 4, 256]⟩
abbrev S512x1x256 : Shape := ⟨3, ![512, 1, 256]⟩
abbrev S512x256 : Shape := ⟨2, ![512, 256]⟩
abbrev S256x512 : Shape := ⟨2, ![256, 512]⟩

abbrev nBuf : Space → Nat
  | .hbm => 62
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x2048, .f32⟩
  | .hbm, ⟨14, _⟩ => ⟨S2048x8x128, .f32⟩
  | .hbm, ⟨15, _⟩ => ⟨S2048x8x128, .f32⟩
  | .hbm, ⟨16, _⟩ => ⟨S_, .f32⟩
  | .hbm, ⟨17, _⟩ => ⟨S2048x8, .f32⟩
  | .hbm, ⟨18, _⟩ => ⟨S2048x8x1, .f32⟩
  | .hbm, ⟨19, _⟩ => ⟨S2048x8x1, .f32⟩
  | .hbm, ⟨20, _⟩ => ⟨S_, .f32⟩
  | .hbm, ⟨21, _⟩ => ⟨S2048x8x1, .f32⟩
  | .hbm, ⟨22, _⟩ => ⟨S2048x8x1, .f32⟩
  | .hbm, ⟨23, _⟩ => ⟨S2048x8x128, .f32⟩
  | .hbm, ⟨24, _⟩ => ⟨S2048x8x128, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8, .f32⟩
  | .hbm, ⟨29, _⟩ => ⟨S2048x8x1, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S2048x8x128, .f32⟩
  | .hbm, ⟨35, _⟩ => ⟨S2048x8x128, .f32⟩
  | .hbm, ⟨36, _⟩ => ⟨S2048x2048, .f32⟩
  | .hbm, ⟨37, _⟩ => ⟨S2048x2048, .f32⟩
  | .hbm, ⟨38, _⟩ => ⟨S2048x4x256, .f32⟩
  | .hbm, ⟨39, _⟩ => ⟨S2048x4x256, .f32⟩
  | .hbm, ⟨40, _⟩ => ⟨S_, .f32⟩
  | .hbm, ⟨41, _⟩ => ⟨S2048x4, .f32⟩
  | .hbm, ⟨42, _⟩ => ⟨S2048x4x1, .f32⟩
  | .hbm, ⟨43, _⟩ => ⟨S2048x4x1, .f32⟩
  | .hbm, ⟨44, _⟩ => ⟨S_, .f32⟩
  | .hbm, ⟨45, _⟩ => ⟨S2048x4x1, .f32⟩
  | .hbm, ⟨46, _⟩ => ⟨S2048x4x1, .f32⟩
  | .hbm, ⟨47, _⟩ => ⟨S2048x4x256, .f32⟩
  | .hbm, ⟨48, _⟩ => ⟨S2048x4x256, .f32⟩
  | .hbm, ⟨49, _⟩ => ⟨S2048x4x256, .f32⟩
  | .hbm, ⟨50, _⟩ => ⟨S2048x4x256, .f32⟩
  | .hbm, ⟨51, _⟩ => ⟨S_, .f32⟩
  | .hbm, ⟨52, _⟩ => ⟨S2048x4, .f32⟩
  | .hbm, ⟨53, _⟩ => ⟨S2048x4x1, .f32⟩
  | .hbm, ⟨54, _⟩ => ⟨S2048x4x1, .f32⟩
  | .hbm, ⟨55, _⟩ => ⟨S_, .f32⟩
  | .hbm, ⟨56, _⟩ => ⟨S2048x4x1, .f32⟩
  | .hbm, ⟨57, _⟩ => ⟨S2048x4x1, .f32⟩
  | .hbm, ⟨58, _⟩ => ⟨S2048x4x256, .f32⟩
  | .hbm, ⟨59, _⟩ => ⟨S2048x4x256, .f32⟩
  | .hbm, ⟨60, _⟩ => ⟨S2048x2048, .f32⟩
  | .hbm, ⟨61, _⟩ => ⟨S2048x2048, .f32⟩
  | .local _ .vmem, ⟨0, _⟩ => ⟨S512x8x128, .f32⟩
  | .local _ .vmem, ⟨1, _⟩ => ⟨S512x8x128, .f32⟩
  | .local _ .vmem, ⟨2, _⟩ => ⟨S512x8x128, .f32⟩
  | .local _ .vmem, ⟨3, _⟩ => ⟨S512x8x128, .f32⟩
  | .local _ .vmem, ⟨4, _⟩ => ⟨S512x512, .f32⟩
  | .local _ .vmem, ⟨5, _⟩ => ⟨S512x512, .f32⟩
  | .local _ .vmem, ⟨6, _⟩ => ⟨S512x4x256, .f32⟩
  | .local _ .vmem, ⟨7, _⟩ => ⟨S512x4x256, .f32⟩
  | .local _ .vmem, ⟨8, _⟩ => ⟨S512x4x256, .f32⟩
  | .local _ .vmem, ⟨9, _⟩ => ⟨S512x4x256, .f32⟩
  | .local _ .vmem, ⟨10, _⟩ => ⟨S512x512, .f32⟩
  | .local _ .vmem, ⟨11, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S2048x2048 : S_.BroadcastsInDim S2048x2048 (![] : Fin 0 → Fin S2048x2048.rank)
  shapeCasts_S2048x1024_S2048x8x128 : S2048x1024.ShapeCasts S2048x8x128
  reducesTo_S2048x8x128_S2048x8_d2 : S2048x8x128.ReducesTo [2] S2048x8
  bcast_S2048x8_S2048x8x1_0_1 : S2048x8.BroadcastsInDim S2048x8x1 (![0, 1] : Fin 2 → Fin S2048x8x1.rank)
  bcast_S_S2048x8x1 : S_.BroadcastsInDim S2048x8x1 (![] : Fin 0 → Fin S2048x8x1.rank)
  bcast_S2048x8x1_S2048x8x128_0_1_2 : S2048x8x1.BroadcastsInDim S2048x8x128 (![0, 1, 2] : Fin 3 → Fin S2048x8x128.rank)
  inb_S512x8x128_S512x1x128_0_0_0 : ∀ a, (![0, 0, 0] : Fin 3 → Nat) a + S512x1x128.size a ≤ S512x8x128.size a
  h_S512x1x128 : 0 < S512x1x128.numel
  shapeCasts_S512x1x128_S512x128 : S512x1x128.ShapeCasts S512x128
  bitsLt_bf16_f32 : FTy.bits .bf16 < FTy.bits .f32
  transposes_S512x128_p1_0_S128x512 : S512x128.Transposes [1, 0] S128x512
  inb_S512x8x128_S512x1x128_0_1_0 : ∀ a, (![0, 1, 0] : Fin 3 → Nat) a + S512x1x128.size a ≤ S512x8x128.size a
  inb_S512x8x128_S512x1x128_0_2_0 : ∀ a, (![0, 2, 0] : Fin 3 → Nat) a + S512x1x128.size a ≤ S512x8x128.size a
  inb_S512x8x128_S512x1x128_0_3_0 : ∀ a, (![0, 3, 0] : Fin 3 → Nat) a + S512x1x128.size a ≤ S512x8x128.size a
  inb_S512x8x128_S512x1x128_0_4_0 : ∀ a, (![0, 4, 0] : Fin 3 → Nat) a + S512x1x128.size a ≤ S512x8x128.size a
  inb_S512x8x128_S512x1x128_0_5_0 : ∀ a, (![0, 5, 0] : Fin 3 → Nat) a + S512x1x128.size a ≤ S512x8x128.size a
  inb_S512x8x128_S512x1x128_0_6_0 : ∀ a, (![0, 6, 0] : Fin 3 → Nat) a + S512x1x128.size a ≤ S512x8x128.size a
  inb_S512x8x128_S512x1x128_0_7_0 : ∀ a, (![0, 7, 0] : Fin 3 → Nat) a + S512x1x128.size a ≤ S512x8x128.size a
  inb_S512x512_S512x512_0_0 : ∀ a, (![0, 0] : Fin 2 → Nat) a + S512x512.size a ≤ S512x512.size a
  h_S512x512 : 0 < S512x512.numel
  shapeCasts_S2048x1024_S2048x4x256 : S2048x1024.ShapeCasts S2048x4x256
  reducesTo_S2048x4x256_S2048x4_d2 : S2048x4x256.ReducesTo [2] S2048x4
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x256_0_1_2 : S2048x4x1.BroadcastsInDim S2048x4x256 (![0, 1, 2] : Fin 3 → Fin S2048x4x256.rank)
  inb_S512x4x256_S512x1x256_0_0_0 : ∀ a, (![0, 0, 0] : Fin 3 → Nat) a + S512x1x256.size a ≤ S512x4x256.size a
  h_S512x1x256 : 0 < S512x1x256.numel
  shapeCasts_S512x1x256_S512x256 : S512x1x256.ShapeCasts S512x256
  transposes_S512x256_p1_0_S256x512 : S512x256.Transposes [1, 0] S256x512
  inb_S512x4x256_S512x1x256_0_1_0 : ∀ a, (![0, 1, 0] : Fin 3 → Nat) a + S512x1x256.size a ≤ S512x4x256.size a
  inb_S512x4x256_S512x1x256_0_2_0 : ∀ a, (![0, 2, 0] : Fin 3 → Nat) a + S512x1x256.size a ≤ S512x4x256.size a
  inb_S512x4x256_S512x1x256_0_3_0 : ∀ a, (![0, 3, 0] : Fin 3 → Nat) a + S512x1x256.size a ≤ S512x4x256.size a
  dot_S512x128_S128x512_S512x512_1_0_0_1_n_n_wf : DotDims.WF S512x128 S128x512 S512x512 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x128.size a ≤ S2048x8x128.size a
  hwx0_0 : ∀ i : grid0.Coords, EltTy.bits .f32 = 32 ∨ (Rect.block (s := S2048x8x128) S512x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x128.size a ≤ S2048x8x128.size a
  hwx0_1 : ∀ i : grid0.Coords, EltTy.bits .f32 = 32 ∨ (Rect.block (s := S2048x8x128) S512x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4x256.size a ≤ S2048x4x256.size a
  hwx1_0 : ∀ i : grid1.Coords, EltTy.bits .f32 = 32 ∨ (Rect.block (s := S2048x4x256) S512x4x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4x256.size a ≤ S2048x4x256.size a
  hwx1_1 : ∀ i : grid1.Coords, EltTy.bits .f32 = 32 ∨ (Rect.block (s := S2048x4x256) S512x4x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .f32 = 32 ∨ (Rect.block (s := S2048x2048) S512x512.size (cc1_transform_2 i) (hinb1_2 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v17) S512x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S512x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S512x4x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S512x4x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x8x128 : Shape := ⟨3, ![2048, 8, 128]⟩
abbrev S2048x8 : Shape := ⟨2, ![2048, 8]⟩
abbrev S2048x8x1 : Shape := ⟨3, ![2048, 8, 1]⟩
abbrev S2048x8x2048x8 : Shape := ⟨4, ![2048, 8, 2048, 8]⟩
abbrev S2048x2048x8x8 : Shape := ⟨4, ![2048, 2048, 8, 8]⟩
abbrev S2048x2048x8 : Shape := ⟨3, ![2048, 2048, 8]⟩
abbrev S2048x4x256 : Shape := ⟨3, ![2048, 4, 256]⟩
abbrev S2048x4 : Shape := ⟨2, ![2048, 4]⟩
abbrev S2048x4x1 : Shape := ⟨3, ![2048, 4, 1]⟩
abbrev S2048x4x2048x4 : Shape := ⟨4, ![2048, 4, 2048, 4]⟩
abbrev S2048x2048x4x4 : Shape := ⟨4, ![2048, 2048, 4, 4]⟩
abbrev S2048x2048x4 : Shape := ⟨3, ![2048, 2048, 4]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x2048, .f32⟩
  | .hbm, ⟨14, _⟩ => ⟨S2048x8x128, .f32⟩
  | .hbm, ⟨15, _⟩ => ⟨S2048x8x128, .f32⟩
  | .hbm, ⟨16, _⟩ => ⟨S_, .f32⟩
  | .hbm, ⟨17, _⟩ => ⟨S2048x8, .f32⟩
  | .hbm, ⟨18, _⟩ => ⟨S2048x8x1, .f32⟩
  | .hbm, ⟨19, _⟩ => ⟨S2048x8x1, .f32⟩
  | .hbm, ⟨20, _⟩ => ⟨S_, .f32⟩
  | .hbm, ⟨21, _⟩ => ⟨S2048x8x1, .f32⟩
  | .hbm, ⟨22, _⟩ => ⟨S2048x8x1, .f32⟩
  | .hbm, ⟨23, _⟩ => ⟨S2048x8x128, .f32⟩
  | .hbm, ⟨24, _⟩ => ⟨S2048x8x128, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8, .f32⟩
  | .hbm, ⟨29, _⟩ => ⟨S2048x8x1, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S2048x8x128, .f32⟩
  | .hbm, ⟨35, _⟩ => ⟨S2048x8x128, .f32⟩
  | .hbm, ⟨36, _⟩ => ⟨S2048x8x2048x8, .f32⟩
  | .hbm, ⟨37, _⟩ => ⟨S2048x2048x8x8, .f32⟩
  | .hbm, ⟨38, _⟩ => ⟨S_, .f32⟩
  | .hbm, ⟨39, _⟩ => ⟨S2048x2048x8, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x4x256, .f32⟩
  | .hbm, ⟨44, _⟩ => ⟨S2048x4x256, .f32⟩
  | .hbm, ⟨45, _⟩ => ⟨S_, .f32⟩
  | .hbm, ⟨46, _⟩ => ⟨S2048x4, .f32⟩
  | .hbm, ⟨47, _⟩ => ⟨S2048x4x1, .f32⟩
  | .hbm, ⟨48, _⟩ => ⟨S2048x4x1, .f32⟩
  | .hbm, ⟨49, _⟩ => ⟨S_, .f32⟩
  | .hbm, ⟨50, _⟩ => ⟨S2048x4x1, .f32⟩
  | .hbm, ⟨51, _⟩ => ⟨S2048x4x1, .f32⟩
  | .hbm, ⟨52, _⟩ => ⟨S2048x4x256, .f32⟩
  | .hbm, ⟨53, _⟩ => ⟨S2048x4x256, .f32⟩
  | .hbm, ⟨54, _⟩ => ⟨S2048x4x256, .f32⟩
  | .hbm, ⟨55, _⟩ => ⟨S2048x4x256, .f32⟩
  | .hbm, ⟨56, _⟩ => ⟨S_, .f32⟩
  | .hbm, ⟨57, _⟩ => ⟨S2048x4, .f32⟩
  | .hbm, ⟨58, _⟩ => ⟨S2048x4x1, .f32⟩
  | .hbm, ⟨59, _⟩ => ⟨S2048x4x1, .f32⟩
  | .hbm, ⟨60, _⟩ => ⟨S_, .f32⟩
  | .hbm, ⟨61, _⟩ => ⟨S2048x4x1, .f32⟩
  | .hbm, ⟨62, _⟩ => ⟨S2048x4x1, .f32⟩
  | .hbm, ⟨63, _⟩ => ⟨S2048x4x256, .f32⟩
  | .hbm, ⟨64, _⟩ => ⟨S2048x4x256, .f32⟩
  | .hbm, ⟨65, _⟩ => ⟨S2048x4x2048x4, .f32⟩
  | .hbm, ⟨66, _⟩ => ⟨S2048x2048x4x4, .f32⟩
  | .hbm, ⟨67, _⟩ => ⟨S_, .f32⟩
  | .hbm, ⟨68, _⟩ => ⟨S2048x2048x4, .f32⟩
  | .hbm, ⟨69, _⟩ => ⟨S_, .f32⟩
  | .hbm, ⟨70, _⟩ => ⟨S2048x2048, .f32⟩
  | .hbm, ⟨71, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S2048x2048 : S_.BroadcastsInDim S2048x2048 (![] : Fin 0 → Fin S2048x2048.rank)
  shapeCasts_S2048x1024_S2048x8x128 : S2048x1024.ShapeCasts S2048x8x128
  reducesTo_S2048x8x128_S2048x8_d2 : S2048x8x128.ReducesTo [2] S2048x8
  bcast_S2048x8_S2048x8x1_0_1 : S2048x8.BroadcastsInDim S2048x8x1 (![0, 1] : Fin 2 → Fin S2048x8x1.rank)
  bcast_S_S2048x8x1 : S_.BroadcastsInDim S2048x8x1 (![] : Fin 0 → Fin S2048x8x1.rank)
  bcast_S2048x8x1_S2048x8x128_0_1_2 : S2048x8x1.BroadcastsInDim S2048x8x128 (![0, 1, 2] : Fin 3 → Fin S2048x8x128.rank)
  transposes_S2048x8x2048x8_S2048x2048x8x8_2_0_3_1 : S2048x8x2048x8.Transposes [2, 0, 3, 1] S2048x2048x8x8
  reducesTo_S2048x2048x8x8_S2048x2048x8_d2 : S2048x2048x8x8.ReducesTo [2] S2048x2048x8
  reducesTo_S2048x2048x8_S2048x2048_d2 : S2048x2048x8.ReducesTo [2] S2048x2048
  shapeCasts_S2048x1024_S2048x4x256 : S2048x1024.ShapeCasts S2048x4x256
  reducesTo_S2048x4x256_S2048x4_d2 : S2048x4x256.ReducesTo [2] S2048x4
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x256_0_1_2 : S2048x4x1.BroadcastsInDim S2048x4x256 (![0, 1, 2] : Fin 3 → Fin S2048x4x256.rank)
  transposes_S2048x4x2048x4_S2048x2048x4x4_2_0_3_1 : S2048x4x2048x4.Transposes [2, 0, 3, 1] S2048x2048x4x4
  reducesTo_S2048x2048x4x4_S2048x2048x4_d2 : S2048x2048x4x4.ReducesTo [2] S2048x2048x4
  reducesTo_S2048x2048x4_S2048x2048_d2 : S2048x2048x4.ReducesTo [2] S2048x2048
  dot_S2048x8x128_S2048x8x128_S2048x8x2048x8_2_2_01_01_n_n_wf : DotDims.WF S2048x8x128 S2048x8x128 S2048x8x2048x8 [2] [2] [0, 1] [0, 1] [] []
  dot_S2048x4x256_S2048x4x256_S2048x4x2048x4_2_2_01_01_n_n_wf : DotDims.WF S2048x4x256 S2048x4x256 S2048x4x2048x4 [2] [2] [0, 1] [0, 1] [] []

variable [Facts₀]

def dot_S2048x8x128_S2048x8x128_S2048x8x2048x8_2_2_01_01_n_n : DotDims S2048x8x128 S2048x8x128 S2048x8x2048x8 where
  lhsContracting := [2]
  rhsContracting := [2]
  lhsNonContracting := [0, 1]
  rhsNonContracting := [0, 1]
  lhsBatch := []
  rhsBatch := []
  wf := dot_S2048x8x128_S2048x8x128_S2048x8x2048x8_2_2_01_01_n_n_wf
def dot_S2048x4x256_S2048x4x256_S2048x4x2048x4_2_2_01_01_n_n : DotDims S2048x4x256 S2048x4x256 S2048x4x2048x4 where
  lhsContracting := [2]
  rhsContracting := [2]
  lhsNonContracting := [0, 1]
  rhsNonContracting := [0, 1]
  lhsBatch := []
  rhsBatch := []
  wf := dot_S2048x4x256_S2048x4x256_S2048x4x2048x4_2_2_01_01_n_n_wf

class Facts : Prop extends Facts₀ where

variable [Facts]
-- ==== Proof.Spec.lean ====
/-
  The block similarity of two row-blocked matrices, as a function on the extended reals.

  An image matrix `I` and a caption matrix `C`, each of 2048 rows cut into `V` blocks of `K` entries, give the score
  of image row `a` against caption row `b`: for every caption block `t` take the largest, over the image blocks `v`,
  of the inner product of image block `v` with caption block `t`, and add these maxima over `t`.  The maximum over
  an empty family is `⊥`, the neutral element of `max`; the sum over an empty family is `0`.

  Besides the definition this module has the two small order-free laws the certificate needs at the block counts
  8 and 4: a left-nested chain of `max` is the fold of `max` from `⊥`, and a left-nested chain of sums from `0` is the
  finite sum.  Both hold on all of the extended reals: `max` and `+` are commutative and associative there, `⊥` is
  neutral for `max` and `0` for `+`; no finiteness is used.
-/
import Idealize.ShloMosaic.PureOps.Ideal
import Idealize.ShloMosaic.PureOps.Ideal.Laws
import Idealize.ShloMosaic.Lib.ValueIdx

noncomputable section

open scoped BigOperators

namespace Cert.Sims

open Idealize.ShloMosaic Idealize.ShloMosaic.ValueIdx

/-- The inner product of block `v` of image row `a` with block `t` of caption row `b`. -/
def blockDot {V K : ℕ} (I C : (⟨3, ![2048, V, K]⟩ : Shape).Idx → EReal) (a b : Fin 2048) (v t : Fin V) : EReal :=
  ∑ k : Fin K, I (ix3 a v k) * C (ix3 b t k)

/-- The score of image row `a` against caption row `b`: the sum over caption blocks of the maximum over image blocks
    of the block inner products. -/
def score {V K : ℕ} (I C : (⟨3, ![2048, V, K]⟩ : Shape).Idx → EReal) (a b : Fin 2048) : EReal :=
  ∑ t : Fin V, (Finset.univ : Finset (Fin V)).fold max ⊥ (fun v => blockDot I C a b v t)

/-- The whole score matrix. -/
def regionSims {V K : ℕ} (I C : (⟨3, ![2048, V, K]⟩ : Shape).Idx → EReal) : (⟨2, ![2048, 2048]⟩ : Shape).Idx → EReal :=
  fun j => score I C (j 0) (j 1)

theorem regionSims_apply {V K : ℕ} (I C : (⟨3, ![2048, V, K]⟩ : Shape).Idx → EReal) (a b : Fin 2048) :
    regionSims I C (ix2 a b) = score I C a b := rfl

/-- Eight values folded by `max` from `⊥` are their left-nested maximum. -/
theorem fold_max_fin8 (g : Fin 8 → EReal) :
    (Finset.univ : Finset (Fin 8)).fold max ⊥ g
      = max (max (max (max (max (max (max (g 0) (g 1)) (g 2)) (g 3)) (g 4)) (g 5)) (g 6)) (g 7) := by
  simp only [Fin.univ_succ, Finset.fold_cons, Finset.fold_map, Finset.univ_unique, Finset.fold_singleton]
  show max (g 0) (max (g 1) (max (g 2) (max (g 3) (max (g 4) (max (g 5) (max (g 6) (max (g 7) ⊥))))))) = _
  rw [max_bot_right]
  ac_rfl

/-- Four values folded by `max` from `⊥` are their left-nested maximum. -/
theorem fold_max_fin4 (g : Fin 4 → EReal) :
    (Finset.univ : Finset (Fin 4)).fold max ⊥ g = max (max (max (g 0) (g 1)) (g 2)) (g 3) := by
  simp only [Fin.univ_succ, Finset.fold_cons, Finset.fold_map, Finset.univ_unique, Finset.fold_singleton]
  show max (g 0) (max (g 1) (max (g 2) (max (g 3) ⊥))) = _
  rw [max_bot_right]
  ac_rfl

/-- Eight values added one after the other to `0` are their sum. -/
theorem sum_fin8 (g : Fin 8 → EReal) :
    ∑ t : Fin 8, g t = 0 + g 0 + g 1 + g 2 + g 3 + g 4 + g 5 + g 6 + g 7 := by
  rw [Fin.sum_univ_eight, zero_add]

/-- Four values added one after the other to `0` are their sum. -/
theorem sum_fin4 (g : Fin 4 → EReal) : ∑ t : Fin 4, g t = 0 + g 0 + g 1 + g 2 + g 3 := by
  rw [Fin.sum_univ_four, zero_add]

end Cert.Sims

end
-- ==== Proof.Body0.lean ====
/-
  What one grid point of the first similarity kernel leaves in its output block, read at an entry.

  The body holds an image block `x0` and a caption block `x1`, each 512 rows of 8 slabs of 128 entries.  For each
  caption slab `t` it multiplies every image slab `v` (512 × 128) by the transposed caption slab (128 × 512), keeps
  the entrywise maximum over `v`, and adds the eight maxima to a zero matrix.  At the extended reals a change of float
  format is the identity and a matrix product into a zero accumulator is the plain sum of products, so entry (p, q)
  of the result is  ∑ t, max over v of ∑ k, x0[p, v, k] · x1[q, t, k].
-/
import proofs.«106075_j31164282700672_1_alg».proof.Proof.Gen.KernelIdeal.Frame
import proofs.«106075_j31164282700672_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Body0

open Cert.KernelIdeal Cert.KernelIdeal.Gen Idealize.ShloMosaic Idealize.ShloMosaic.ValueIdx Cert.Sims

/-- Slab `v` of a block as a 512 × 1 × 128 piece: its entry (p, ·, k) is the block's entry (p, v, k). -/
def slab (x : Vec Ideal S512x8x128 .f32) (v : Fin 8) : Vec Ideal S512x1x128 .f32 := fun i => x (ix3 (i 0) v (i 2))

theorem slab_apply (x : Vec Ideal S512x8x128 .f32) (v : Fin 8) (p : Fin 512) (k : Fin 128) :
    slab x v (ix3 p 0 k) = x (ix3 p v k) := rfl

/-- A load through the unit rectangle at slab `v` reads that slab. -/
theorem ld_slab (x : Vec Ideal S512x8x128 .f32) (v : Fin 8) (off : Fin 3 → ℕ) (h0 : off 0 = 0) (h1 : off 1 = v.val) (h2 : off 2 = 0)
    (inb : ∀ a, off a + S512x1x128.size a ≤ S512x8x128.size a) :
    View.ld x (Rect.unit (s := S512x8x128) off S512x1x128.size inb) = slab x v := by
  funext i
  show x ((Rect.unit (s := S512x8x128) off S512x1x128.size inb).emb i) = x (ix3 (i 0) v (i 2))
  refine congrArg x (funext fun a => Fin.ext ?_)
  match a with
  | ⟨0, _⟩ => show off 0 + 1 * (i 0).val = (i 0).val; omega
  | ⟨1, _⟩ => show off 1 + 1 * (i 1).val = v.val; have h : (i 1).val < 1 := (i 1).isLt; omega
  | ⟨2, _⟩ => show off 2 + 1 * (i 2).val = (i 2).val; omega

theorem ld_r0 (x : Vec Ideal S512x8x128 .f32) : View.ld x r0_0 = slab x 0 := ld_slab x 0 _ rfl rfl rfl _
theorem ld_r1 (x : Vec Ideal S512x8x128 .f32) : View.ld x r0_1 = slab x 1 := ld_slab x 1 _ rfl rfl rfl _
theorem ld_r2 (x : Vec Ideal S512x8x128 .f32) : View.ld x r0_2 = slab x 2 := ld_slab x 2 _ rfl rfl rfl _
theorem ld_r3 (x : Vec Ideal S512x8x128 .f32) : View.ld x r0_3 = slab x 3 := ld_slab x 3 _ rfl rfl rfl _
theorem ld_r4 (x : Vec Ideal S512x8x128 .f32) : View.ld x r0_4 = slab x 4 := ld_slab x 4 _ rfl rfl rfl _
theorem ld_r5 (x : Vec Ideal S512x8x128 .f32) : View.ld x r0_5 = slab x 5 := ld_slab x 5 _ rfl rfl rfl _
theorem ld_r6 (x : Vec Ideal S512x8x128 .f32) : View.ld x r0_6 = slab x 6 := ld_slab x 6 _ rfl rfl rfl _
theorem ld_r7 (x : Vec Ideal S512x8x128 .f32) : View.ld x r0_7 = slab x 7 := ld_slab x 7 _ rfl rfl rfl _

/-- Dropping the unit axis of a 512 × 1 × 128 piece: entry (p, k) is the piece's entry (p, 0, k). -/
theorem slab_cast (v : Vec Ideal S512x1x128 .f32) (p : Fin 512) (k : Fin 128) :
    shapeCast S512x128 v shapeCasts_S512x1x128_S512x128 (ix2 p k) = v (ix3 p 0 k) :=
  shapeCast_apply v shapeCasts_S512x1x128_S512x128 (ix2 p k) (ix3 p 0 k) (by
    rw [Shape.rowMajor_val_two, Shape.rowMajor_val_three]
    show (p.val * 1 + 0) * 128 + k.val = p.val * 128 + k.val
    omega)

/-- The transposed caption slab: entry (k, q) is the slab's entry (q, k). -/
theorem slab_transpose {φ : FTy} (b : FVec Ideal S512x128 φ) (k : Fin 128) (q : Fin 512) :
    transpose S128x512 [1, 0] b transposes_S512x128_p1_0_S128x512 (ix2 k q) = b (ix2 q k) :=
  transpose_apply [1, 0] b transposes_S512x128_p1_0_S128x512 (ix2 k q) (ix2 q k) (fun d => match d with
    | ⟨0, _⟩ => rfl
    | ⟨1, _⟩ => rfl)

theorem lhs_mm_0 (i : S512x512.Idx) (q : dot_S512x128_S128x512_S512x512_1_0_0_1_n_n.contr.Idx) : (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhs_mm_1 (i : S512x512.Idx) (q : dot_S512x128_S128x512_S512x512_1_0_0_1_n_n.contr.Idx) : (dot_S512x128_S128x512_S512x512_1_0_0_1_n_n.lhsIdx i q 1).val = (q ⟨0, by decide⟩).val :=
  dot_S512x128_S128x512_S512x512_1_0_0_1_n_n.lhsIdx_val_of_single rfl i q
theorem rhs_mm_0 (i : S512x512.Idx) (q : dot_S512x128_S128x512_S512x512_1_0_0_1_n_n.contr.Idx) : (dot_S512x128_S128x512_S512x512_1_0_0_1_n_n.rhsIdx i q 0).val = (q ⟨0, by decide⟩).val :=
  dot_S512x128_S128x512_S512x512_1_0_0_1_n_n.rhsIdx_val_of_single rfl i q
theorem rhs_mm_1 (i : S512x512.Idx) (q : dot_S512x128_S128x512_S512x512_1_0_0_1_n_n.contr.Idx) : (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- A 512 × 128 by 128 × 512 product into the zero matrix, at (p, q): the sum over k of a[p, k] · b[k, q]. -/
theorem mm_apply {φ₁ φ₂ : FTy} (a : FVec Ideal S512x128 φ₁) (b : FVec Ideal S128x512 φ₂) (p q : Fin 512) :
    matmul dot_S512x128_S128x512_S512x512_1_0_0_1_n_n none a b (constant S512x512 .f32 0x00000000#32) (ix2 p q)
      = ∑ k : Fin 128, a (ix2 p k) * b (ix2 k q) := by
  simp only [matmul]
  rw [Ideal.matmul_constant_zero_apply, ← Equiv.sum_comp (ValueIdx.contrEquiv1 dot_S512x128_S128x512_S512x512_1_0_0_1_n_n 128 rfl rfl).symm]
  refine Finset.sum_congr rfl fun k _ => ?_
  have hk := ValueIdx.contrEquiv1_symm_val dot_S512x128_S128x512_S512x512_1_0_0_1_n_n 128 rfl rfl k
  have el : dot_S512x128_S128x512_S512x512_1_0_0_1_n_n.lhsIdx (ix2 p q) ((ValueIdx.contrEquiv1 dot_S512x128_S128x512_S512x512_1_0_0_1_n_n 128 rfl rfl).symm k) = ix2 p k := funext fun d => Fin.ext (by
    match d with
    | ⟨0, _⟩ => exact lhs_mm_0 _ _
    | ⟨1, _⟩ => exact (lhs_mm_1 _ _).trans hk)
  have er : dot_S512x128_S128x512_S512x512_1_0_0_1_n_n.rhsIdx (ix2 p q) ((ValueIdx.contrEquiv1 dot_S512x128_S128x512_S512x512_1_0_0_1_n_n 128 rfl rfl).symm k) = ix2 k q := funext fun d => Fin.ext (by
    match d with
    | ⟨0, _⟩ => exact (rhs_mm_0 _ _).trans hk
    | ⟨1, _⟩ => exact rhs_mm_1 _ _)
  rw [el, er]

/-- An image slab times a transposed caption slab, both narrowed to the short format (the identity here), into the zero
    matrix: entry (p, q) is the inner product of row p of the first with row q of the second. -/
theorem dotT (xa xb : Vec Ideal S512x1x128 .f32) (p q : Fin 512) :
    matmul dot_S512x128_S128x512_S512x512_1_0_0_1_n_n none
        (truncf (F := Ideal) .bf16 (shapeCast S512x128 xa shapeCasts_S512x1x128_S512x128) bitsLt_bf16_f32)
        (transpose S128x512 [1, 0] (truncf (F := Ideal) .bf16 (shapeCast S512x128 xb shapeCasts_S512x1x128_S512x128) bitsLt_bf16_f32) transposes_S512x128_p1_0_S128x512)
        (constant S512x512 .f32 0x00000000#32) (ix2 p q)
      = ∑ k : Fin 128, xa (ix3 p 0 k) * xb (ix3 q 0 k) := by
  rw [mm_apply]
  refine Finset.sum_congr rfl fun k _ => ?_
  rw [slab_transpose, truncf_apply, truncf_apply, slab_cast, slab_cast]

theorem hz2 : (![0, 0] : Fin 2 → ℕ) = fun _ => 0 := funext fun a => match a with | ⟨0, _⟩ => rfl | ⟨1, _⟩ => rfl

/-- Entry (p, q) of the block the body stores. -/
theorem out_apply (x0 x1 : Vec Ideal S512x8x128 .f32) (p q : Fin 512) :
    out0_2 (F := Ideal) x0 x1 (ix2 p q)
      = ∑ t : Fin 8, (Finset.univ : Finset (Fin 8)).fold max ⊥ (fun v : Fin 8 => ∑ k : Fin 128, x0 (ix3 p v k) * x1 (ix3 q t k)) := by
  unfold out0_2
  rw [View.canon_unit_zero hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, ld_r0, ld_r1, ld_r2, ld_r3, ld_r4, ld_r5, ld_r6, ld_r7]
  simp only [addf_apply, maximumf_apply, broadcast_apply]
  repeat rw [dotT]
  rw [sum_fin8]
  simp only [fold_max_fin8]
  rw [show (FloatOps.ofBits FTy.f32 0#32 : Ideal .f32) = (0 : EReal) from Ideal.ofBits_zero_f32]
  simp only [slab_apply]

end Cert.KernelIdeal.Body0

end
-- ==== Proof.Region0.lean ====
/-
  The first similarity kernel over its whole 4 × 4 grid: the output array after the run is the block similarity
  (8 blocks of 128 entries) of the two input arrays as the region finds them.

  Grid point t = (i, j) reads rows 512·i … 512·i + 511 of the image array, rows 512·j … 512·j + 511 of the caption array
  (all 8 blocks of each), and writes back the 512 × 512 tile (i, j) of the result.  Entry (p, q) of what it writes is, by
  the body's value, the score of image row 512·i + p against caption row 512·j + q: the tile is a restriction of ONE
  function of the two arrays.  The sixteen tiles cover the 2048 × 2048 result (row r lies in tile row r / 512), so the
  array after the run is that function.
-/
import proofs.«106075_j31164282700672_1_alg».proof.Proof.Gen.KernelIdeal.Frame
import proofs.«106075_j31164282700672_1_alg».proof.Proof.Body0
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx Cert.Sims
open Idealize.ShloMosaic.Pipeline (Dat Cfg Window)

variable (V : (c : Dev nD) → (b : Ref sig .tc) → Buf (Elt Ideal) ((c : Thread nD τ).loc b))

/-- The image blocks and the caption blocks as the region finds them. -/
abbrev imgArr (c : Dev nD) : Vec Ideal S2048x8x128 .f32 := V c main_v17
abbrev capArr (c : Dev nD) : Vec Ideal S2048x8x128 .f32 := V c main_v26

/-- The printed index maps, decided over the sixteen points: the image window follows the output tile's row index,
    the caption window its column index, neither moves along its block or entry axis, and both tile indices are below 4. -/
theorem idx_facts : ∀ t : Fin cfg0.N, win0_0.index t (0 : Fin 3) = win0_2.index t (0 : Fin 2)
    ∧ win0_0.index t (1 : Fin 3) = 0 ∧ win0_0.index t (2 : Fin 3) = 0
    ∧ win0_1.index t (0 : Fin 3) = win0_2.index t (1 : Fin 2)
    ∧ win0_1.index t (1 : Fin 3) = 0 ∧ win0_1.index t (2 : Fin 3) = 0
    ∧ win0_2.index t (0 : Fin 2) ≤ 3 ∧ win0_2.index t (1 : Fin 2) ≤ 3 :=
  (by decide +kernel : ∀ t : Fin grid0.N, _)

/-- Every tile is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- What point `t` writes back is tile `t` of the block similarity of the two arrays. -/
theorem flushed_eq (c : Dev nD) (t : Fin cfg0.N) :
    (dat0 (F := Ideal) V c).flushed 2 t
      = ((cfg0.win 2).blk t).view.read (Elt Ideal) (regionSims (V := 8) (K := 128) (imgArr V c) (capArr V c)) := by
  show (cfg0.win 2).cut (grid0.coords t) ((dat0 (F := Ideal) V c).after 2 t) = _
  rw [after0_2]
  obtain ⟨e0, e1, e2, e3, e4, e5, e6, e7⟩ := idx_facts t
  funext j
  obtain ⟨p, q, rfl⟩ : ∃ (p q : Fin 512), j = ix2 p q := ⟨j 0, j 1, eq_ix2 j⟩
  show out0_2 (F := Ideal) (iblk0 V c 0 t) (iblk0 V c 1 t) (ix2 p q)
    = regionSims (V := 8) (K := 128) (imgArr V c) (capArr V c) (((cfg0.win 2).blk t).view.emb (ix2 p q))
  refine (Body0.out_apply (iblk0 V c 0 t) (iblk0 V c 1 t) p q).trans ?_
  show _ = score (V := 8) (K := 128) (imgArr V c) (capArr V c) _ _
  unfold score blockDot
  refine Finset.sum_congr rfl fun t' _ => ?_
  refine congrArg (fun f => Finset.fold max ⊥ f (Finset.univ : Finset (Fin 8))) (funext fun v => ?_)
  refine Finset.sum_congr rfl fun k _ => ?_
  refine congrArg₂ (· * ·) ?_ ?_
  · show V c main_v17 (((cfg0.win 0).blk t).view.emb (ix3 p v k)) = V c main_v17 _
    refine congrArg (V c main_v17) (funext fun a => Fin.ext ?_)
    match a with
    | ⟨0, _⟩ => show win0_0.index t (0 : Fin 3) * 512 + 1 * p.val = win0_2.index t (0 : Fin 2) * 512 + 1 * p.val; omega
    | ⟨1, _⟩ => show win0_0.index t (1 : Fin 3) * 8 + 1 * v.val = v.val; omega
    | ⟨2, _⟩ => show win0_0.index t (2 : Fin 3) * 128 + 1 * k.val = k.val; omega
  · show V c main_v26 (((cfg0.win 1).blk t).view.emb (ix3 q t' k)) = V c main_v26 _
    refine congrArg (V c main_v26) (funext fun a => Fin.ext ?_)
    match a with
    | ⟨0, _⟩ => show win0_1.index t (0 : Fin 3) * 512 + 1 * q.val = win0_2.index t (1 : Fin 2) * 512 + 1 * q.val; omega
    | ⟨1, _⟩ => show win0_1.index t (1 : Fin 3) * 8 + 1 * t'.val = t'.val; omega
    | ⟨2, _⟩ => show win0_1.index t (2 : Fin 3) * 128 + 1 * k.val = k.val; omega

/-- An entry of the result lies in point `t`'s tile iff each coordinate lies in the tile's range on its axis. -/
theorem mem_blk (t : Fin cfg0.N) (i : S2048x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v27).slice (win0_2.rect t)).set ↔ _
  rw [View.set_slice_whole, Rect.mem_set_unit]
  exact Iff.rfl

/-- Every entry of the result lies in the tile of some point that writes back. -/
theorem cover (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the region. -/
theorem final (c : Dev nD) :
    (dat0 (F := Ideal) V c).arrAt 2 cfg0.N = regionSims (V := 8) (K := 128) (imgArr V c) (capArr V c) :=
  (dat0 (F := Ideal) V c).arrAt_eq_of_cover 2 _ (fun t _ => flushed_eq V c t) (cover)

end Cert.KernelIdeal.Region0

end
-- ==== Proof.Body1.lean ====
/-
  What one grid point of the second similarity kernel leaves in its output block, read at an entry.

  The body holds an image block `x0` and a caption block `x1`, each 512 rows of 4 slabs of 256 entries.  For each
  caption slab `t` it multiplies every image slab `v` (512 × 256) by the transposed caption slab (256 × 512), keeps
  the entrywise maximum over `v`, and adds the four maxima to a zero matrix.  At the extended reals a change of float
  format is the identity and a matrix product into a zero accumulator is the plain sum of products, so entry (p, q)
  of the result is  ∑ t, max over v of ∑ k, x0[p, v, k] · x1[q, t, k].
-/
import proofs.«106075_j31164282700672_1_alg».proof.Proof.Gen.KernelIdeal.Frame
import proofs.«106075_j31164282700672_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Body1

open Cert.KernelIdeal Cert.KernelIdeal.Gen Idealize.ShloMosaic Idealize.ShloMosaic.ValueIdx Cert.Sims

/-- Slab `v` of a block as a 512 × 1 × 256 piece: its entry (p, ·, k) is the block's entry (p, v, k). -/
def slab (x : Vec Ideal S512x4x256 .f32) (v : Fin 4) : Vec Ideal S512x1x256 .f32 := fun i => x (ix3 (i 0) v (i 2))

theorem slab_apply (x : Vec Ideal S512x4x256 .f32) (v : Fin 4) (p : Fin 512) (k : Fin 256) :
    slab x v (ix3 p 0 k) = x (ix3 p v k) := rfl

/-- A load through the unit rectangle at slab `v` reads that slab. -/
theorem ld_slab (x : Vec Ideal S512x4x256 .f32) (v : Fin 4) (off : Fin 3 → ℕ) (h0 : off 0 = 0) (h1 : off 1 = v.val) (h2 : off 2 = 0)
    (inb : ∀ a, off a + S512x1x256.size a ≤ S512x4x256.size a) :
    View.ld x (Rect.unit (s := S512x4x256) off S512x1x256.size inb) = slab x v := by
  funext i
  show x ((Rect.unit (s := S512x4x256) off S512x1x256.size inb).emb i) = x (ix3 (i 0) v (i 2))
  refine congrArg x (funext fun a => Fin.ext ?_)
  match a with
  | ⟨0, _⟩ => show off 0 + 1 * (i 0).val = (i 0).val; omega
  | ⟨1, _⟩ => show off 1 + 1 * (i 1).val = v.val; have h : (i 1).val < 1 := (i 1).isLt; omega
  | ⟨2, _⟩ => show off 2 + 1 * (i 2).val = (i 2).val; omega

theorem ld_r0 (x : Vec Ideal S512x4x256 .f32) : View.ld x r1_0 = slab x 0 := ld_slab x 0 _ rfl rfl rfl _
theorem ld_r1 (x : Vec Ideal S512x4x256 .f32) : View.ld x r1_1 = slab x 1 := ld_slab x 1 _ rfl rfl rfl _
theorem ld_r2 (x : Vec Ideal S512x4x256 .f32) : View.ld x r1_2 = slab x 2 := ld_slab x 2 _ rfl rfl rfl _
theorem ld_r3 (x : Vec Ideal S512x4x256 .f32) : View.ld x r1_3 = slab x 3 := ld_slab x 3 _ rfl rfl rfl _

/-- Dropping the unit axis of a 512 × 1 × 256 piece: entry (p, k) is the piece's entry (p, 0, k). -/
theorem slab_cast (v : Vec Ideal S512x1x256 .f32) (p : Fin 512) (k : Fin 256) :
    shapeCast S512x256 v shapeCasts_S512x1x256_S512x256 (ix2 p k) = v (ix3 p 0 k) :=
  shapeCast_apply v shapeCasts_S512x1x256_S512x256 (ix2 p k) (ix3 p 0 k) (by
    rw [Shape.rowMajor_val_two, Shape.rowMajor_val_three]
    show (p.val * 1 + 0) * 256 + k.val = p.val * 256 + k.val
    omega)

/-- The transposed caption slab: entry (k, q) is the slab's entry (q, k). -/
theorem slab_transpose {φ : FTy} (b : FVec Ideal S512x256 φ) (k : Fin 256) (q : Fin 512) :
    transpose S256x512 [1, 0] b transposes_S512x256_p1_0_S256x512 (ix2 k q) = b (ix2 q k) :=
  transpose_apply [1, 0] b transposes_S512x256_p1_0_S256x512 (ix2 k q) (ix2 q k) (fun d => match d with
    | ⟨0, _⟩ => rfl
    | ⟨1, _⟩ => rfl)

theorem lhs_mm_0 (i : S512x512.Idx) (q : dot_S512x256_S256x512_S512x512_1_0_0_1_n_n.contr.Idx) : (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_mm_1 (i : S512x512.Idx) (q : dot_S512x256_S256x512_S512x512_1_0_0_1_n_n.contr.Idx) : (dot_S512x256_S256x512_S512x512_1_0_0_1_n_n.lhsIdx i q 1).val = (q ⟨0, by decide⟩).val :=
  dot_S512x256_S256x512_S512x512_1_0_0_1_n_n.lhsIdx_val_of_single rfl i q
theorem rhs_mm_0 (i : S512x512.Idx) (q : dot_S512x256_S256x512_S512x512_1_0_0_1_n_n.contr.Idx) : (dot_S512x256_S256x512_S512x512_1_0_0_1_n_n.rhsIdx i q 0).val = (q ⟨0, by decide⟩).val :=
  dot_S512x256_S256x512_S512x512_1_0_0_1_n_n.rhsIdx_val_of_single rfl i q
theorem rhs_mm_1 (i : S512x512.Idx) (q : dot_S512x256_S256x512_S512x512_1_0_0_1_n_n.contr.Idx) : (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- A 512 × 256 by 256 × 512 product into the zero matrix, at (p, q): the sum over k of a[p, k] · b[k, q]. -/
theorem mm_apply {φ₁ φ₂ : FTy} (a : FVec Ideal S512x256 φ₁) (b : FVec Ideal S256x512 φ₂) (p q : Fin 512) :
    matmul dot_S512x256_S256x512_S512x512_1_0_0_1_n_n none a b (constant S512x512 .f32 0x00000000#32) (ix2 p q)
      = ∑ k : Fin 256, a (ix2 p k) * b (ix2 k q) := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 p q) ((ValueIdx.contrEquiv1 dot_S512x256_S256x512_S512x512_1_0_0_1_n_n 256 rfl rfl).symm k) = ix2 p k := funext fun d => Fin.ext (by
    match d with
    | ⟨0, _⟩ => exact lhs_mm_0 _ _
    | ⟨1, _⟩ => exact (lhs_mm_1 _ _).trans hk)
  have er : dot_S512x256_S256x512_S512x512_1_0_0_1_n_n.rhsIdx (ix2 p q) ((ValueIdx.contrEquiv1 dot_S512x256_S256x512_S512x512_1_0_0_1_n_n 256 rfl rfl).symm k) = ix2 k q := funext fun d => Fin.ext (by
    match d with
    | ⟨0, _⟩ => exact (rhs_mm_0 _ _).trans hk
    | ⟨1, _⟩ => exact rhs_mm_1 _ _)
  rw [el, er]

/-- An image slab times a transposed caption slab, both narrowed to the short format (the identity here), into the zero
    matrix: entry (p, q) is the inner product of row p of the first with row q of the second. -/
theorem dotT (xa xb : Vec Ideal S512x1x256 .f32) (p q : Fin 512) :
    matmul dot_S512x256_S256x512_S512x512_1_0_0_1_n_n none
        (truncf (F := Ideal) .bf16 (shapeCast S512x256 xa shapeCasts_S512x1x256_S512x256) bitsLt_bf16_f32)
        (transpose S256x512 [1, 0] (truncf (F := Ideal) .bf16 (shapeCast S512x256 xb shapeCasts_S512x1x256_S512x256) bitsLt_bf16_f32) transposes_S512x256_p1_0_S256x512)
        (constant S512x512 .f32 0x00000000#32) (ix2 p q)
      = ∑ k : Fin 256, xa (ix3 p 0 k) * xb (ix3 q 0 k) := by
  rw [mm_apply]
  refine Finset.sum_congr rfl fun k _ => ?_
  rw [slab_transpose, truncf_apply, truncf_apply, slab_cast, slab_cast]

theorem hz2 : (![0, 0] : Fin 2 → ℕ) = fun _ => 0 := funext fun a => match a with | ⟨0, _⟩ => rfl | ⟨1, _⟩ => rfl

/-- Entry (p, q) of the block the body stores. -/
theorem out_apply (x0 x1 : Vec Ideal S512x4x256 .f32) (p q : Fin 512) :
    out1_2 (F := Ideal) x0 x1 (ix2 p q)
      = ∑ t : Fin 4, (Finset.univ : Finset (Fin 4)).fold max ⊥ (fun v : Fin 4 => ∑ k : Fin 256, x0 (ix3 p v k) * x1 (ix3 q t k)) := by
  unfold out1_2
  rw [View.canon_unit_zero hz2]
  simp only [k1_pay1, k1_pay2, k1_pay3, k1_pay4, k1_pay5, k1_pay6, k1_pay7, k1_pay8, k1_pay9, k1_pay10, ld_r0, ld_r1, ld_r2, ld_r3]
  simp only [addf_apply, maximumf_apply, broadcast_apply]
  repeat rw [dotT]
  rw [sum_fin4]
  simp only [fold_max_fin4]
  rw [show (FloatOps.ofBits FTy.f32 0#32 : Ideal .f32) = (0 : EReal) from Ideal.ofBits_zero_f32]
  simp only [slab_apply]

end Cert.KernelIdeal.Body1

end
-- ==== Proof.Region1.lean ====
/-
  The second similarity kernel over its whole 4 × 4 grid: the output array after the run is the block similarity
  (4 blocks of 256 entries) of the two input arrays as the region finds them.

  Grid point t = (i, j) reads rows 512·i … 512·i + 511 of the image array, rows 512·j … 512·j + 511 of the caption array
  (all 4 blocks of each), and writes back the 512 × 512 tile (i, j) of the result.  Entry (p, q) of what it writes is, by
  the body's value, the score of image row 512·i + p against caption row 512·j + q: the tile is a restriction of ONE
  function of the two arrays.  The sixteen tiles cover the 2048 × 2048 result (row r lies in tile row r / 512), so the
  array after the run is that function.
-/
import proofs.«106075_j31164282700672_1_alg».proof.Proof.Gen.KernelIdeal.Frame
import proofs.«106075_j31164282700672_1_alg».proof.Proof.Body1
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx Cert.Sims
open Idealize.ShloMosaic.Pipeline (Dat Cfg Window)

variable (V : (c : Dev nD) → (b : Ref sig .tc) → Buf (Elt Ideal) ((c : Thread nD τ).loc b))

/-- The image blocks and the caption blocks as the region finds them. -/
abbrev imgArr (c : Dev nD) : Vec Ideal S2048x4x256 .f32 := V c main_v37
abbrev capArr (c : Dev nD) : Vec Ideal S2048x4x256 .f32 := V c main_v46

/-- The printed index maps, decided over the sixteen points: the image window follows the output tile's row index,
    the caption window its column index, neither moves along its block or entry axis, and both tile indices are below 4. -/
theorem idx_facts : ∀ t : Fin cfg1.N, win1_0.index t (0 : Fin 3) = win1_2.index t (0 : Fin 2)
    ∧ win1_0.index t (1 : Fin 3) = 0 ∧ win1_0.index t (2 : Fin 3) = 0
    ∧ win1_1.index t (0 : Fin 3) = win1_2.index t (1 : Fin 2)
    ∧ win1_1.index t (1 : Fin 3) = 0 ∧ win1_1.index t (2 : Fin 3) = 0
    ∧ win1_2.index t (0 : Fin 2) ≤ 3 ∧ win1_2.index t (1 : Fin 2) ≤ 3 :=
  (by decide +kernel : ∀ t : Fin grid1.N, _)

/-- Every tile is some point's. -/
theorem idx_onto : ∀ (q0 q1 : Fin 4), ∃ t : Fin cfg1.N, win1_2.index t = ![q0.val, q1.val] :=
  (by decide +kernel : ∀ (q0 q1 : Fin 4), ∃ t : Fin grid1.N, win1_2.index t = ![q0.val, q1.val])

/-- What point `t` writes back is tile `t` of the block similarity of the two arrays. -/
theorem flushed_eq (c : Dev nD) (t : Fin cfg1.N) :
    (dat1 (F := Ideal) V c).flushed 2 t
      = ((cfg1.win 2).blk t).view.read (Elt Ideal) (regionSims (V := 4) (K := 256) (imgArr V c) (capArr V c)) := by
  show (cfg1.win 2).cut (grid1.coords t) ((dat1 (F := Ideal) V c).after 2 t) = _
  rw [after1_2]
  obtain ⟨e0, e1, e2, e3, e4, e5, e6, e7⟩ := idx_facts t
  funext j
  obtain ⟨p, q, rfl⟩ : ∃ (p q : Fin 512), j = ix2 p q := ⟨j 0, j 1, eq_ix2 j⟩
  show out1_2 (F := Ideal) (iblk1 V c 0 t) (iblk1 V c 1 t) (ix2 p q)
    = regionSims (V := 4) (K := 256) (imgArr V c) (capArr V c) (((cfg1.win 2).blk t).view.emb (ix2 p q))
  refine (Body1.out_apply (iblk1 V c 0 t) (iblk1 V c 1 t) p q).trans ?_
  show _ = score (V := 4) (K := 256) (imgArr V c) (capArr V c) _ _
  unfold score blockDot
  refine Finset.sum_congr rfl fun t' _ => ?_
  refine congrArg (fun f => Finset.fold max ⊥ f (Finset.univ : Finset (Fin 4))) (funext fun v => ?_)
  refine Finset.sum_congr rfl fun k _ => ?_
  refine congrArg₂ (· * ·) ?_ ?_
  · show V c main_v37 (((cfg1.win 0).blk t).view.emb (ix3 p v k)) = V c main_v37 _
    refine congrArg (V c main_v37) (funext fun a => Fin.ext ?_)
    match a with
    | ⟨0, _⟩ => show win1_0.index t (0 : Fin 3) * 512 + 1 * p.val = win1_2.index t (0 : Fin 2) * 512 + 1 * p.val; omega
    | ⟨1, _⟩ => show win1_0.index t (1 : Fin 3) * 4 + 1 * v.val = v.val; omega
    | ⟨2, _⟩ => show win1_0.index t (2 : Fin 3) * 256 + 1 * k.val = k.val; omega
  · show V c main_v46 (((cfg1.win 1).blk t).view.emb (ix3 q t' k)) = V c main_v46 _
    refine congrArg (V c main_v46) (funext fun a => Fin.ext ?_)
    match a with
    | ⟨0, _⟩ => show win1_1.index t (0 : Fin 3) * 512 + 1 * q.val = win1_2.index t (1 : Fin 2) * 512 + 1 * q.val; omega
    | ⟨1, _⟩ => show win1_1.index t (1 : Fin 3) * 4 + 1 * t'.val = t'.val; omega
    | ⟨2, _⟩ => show win1_1.index t (2 : Fin 3) * 256 + 1 * k.val = k.val; omega

/-- An entry of the result lies in point `t`'s tile iff each coordinate lies in the tile's range on its axis. -/
theorem mem_blk (t : Fin cfg1.N) (i : S2048x2048.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v47).slice (win1_2.rect t)).set ↔ _
  rw [View.set_slice_whole, Rect.mem_set_unit]
  exact Iff.rfl

/-- Every entry of the result lies in the tile of some point that writes back. -/
theorem cover (i : S2048x2048.Idx) : ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := idx_onto ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-- The result array after the region. -/
theorem final (c : Dev nD) :
    (dat1 (F := Ideal) V c).arrAt 2 cfg1.N = regionSims (V := 4) (K := 256) (imgArr V c) (capArr V c) :=
  (dat1 (F := Ideal) V c).arrAt_eq_of_cover 2 _ (fun t _ => flushed_eq V c t) (cover)

end Cert.KernelIdeal.Region1

end
-- ==== Proof.KResult.lean ====
/-
  The kernel program's result as a function of its two arguments.

  The result buffer at the end of @main is the last host addition of two buffers: the first is the zero matrix plus the
  first kernel's output array, the second the second kernel's output array.  Each kernel's output array is the block
  similarity of its two input arrays as its region finds them (Region0, Region1), and those inputs are written by host
  operations only: the row-normalised image blocks and the twice-normalised caption blocks, at block width 128 before the
  first region and at width 256 between the regions.  No region writes a buffer a later host operation reads other than
  its own output, so every such read walks back through the regions to the launch memory.  The host chains are, operation
  for operation, the ones the reference applies to the same arguments.
-/
import proofs.«106075_j31164282700672_1_alg».proof.Proof.Gen.KernelIdeal.Frame
import proofs.«106075_j31164282700672_1_alg».proof.Proof.Gen.ReferenceIdeal.Read
import proofs.«106075_j31164282700672_1_alg».proof.Proof.Region0
import proofs.«106075_j31164282700672_1_alg».proof.Proof.Region1
import Idealize.ShloMosaic.Lib.StableHlo.Run

set_option maxRecDepth 16384

noncomputable section

open scoped BigOperators

namespace Cert.KernelIdeal.Result

open Cert.KernelIdeal Cert.KernelIdeal.Gen Idealize.ShloMosaic Idealize.ShloMosaic.TcCoe Idealize.SL.Sem Idealize.ShloMosaic.StableHlo
open Idealize.ShloMosaic.ValueIdx Cert.Sims

variable (m : (ℓ : Loc nD τ sig) → Buf (Elt Ideal) ℓ) (ρ : Dev nD → PrngReg)

/-- The buffers of the result's shape, at the boundaries where the program reads them: the zero matrix and the first
    kernel's output at the first region's exit; their sum and the second kernel's output at the second region's exit; the
    result at the end. -/
abbrev zeroMat (c : Dev nD) : S2048x2048.Idx → EReal := W2 m ρ c (Proc.devRef .tc main_v8)
abbrev firstOut (c : Dev nD) : S2048x2048.Idx → EReal := W2 m ρ c (Proc.devRef .tc main_v27)
abbrev partialSum (c : Dev nD) : S2048x2048.Idx → EReal := W4 m ρ c (Proc.devRef .tc main_v28)
abbrev secondOut (c : Dev nD) : S2048x2048.Idx → EReal := W4 m ρ c (Proc.devRef .tc main_v47)

/-- The image blocks of width 128 at the first region's entry: the reference's normalised image blocks. -/
theorem img128 (c : Dev nD) :
    (V1 m ρ c main_v17 : S2048x8x128.Idx → EReal) = Cert.ReferenceIdeal.Read.val_main_v17 (F := Ideal) (m ((c : Thread nD τ).loc main_arg0)) := by
  show StableHlo.after hostOps0 (W0 m ρ c) (Proc.devRef .tc main_v17) = _
  dsimp only [hostOps0]
  after_results
  rfl

/-- The caption blocks of width 128 at the first region's entry. -/
theorem cap128 (c : Dev nD) :
    (V1 m ρ c main_v26 : S2048x8x128.Idx → EReal) = Cert.ReferenceIdeal.Read.val_main_v26 (F := Ideal) (m ((c : Thread nD τ).loc main_arg1)) := by
  show StableHlo.after hostOps0 (W0 m ρ c) (Proc.devRef .tc main_v26) = _
  dsimp only [hostOps0]
  after_results
  rfl

/-- The first argument read at the first region's exit: no window of the region is its array, and no host operation
    before the region writes it. -/
theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  dsimp only [hostOps0]
  after_results

/-- The normalised captions (rows of 1024 entries) read at the first region's exit: written before the region, no window's array. -/
theorem W2_v7 (c : Dev nD) :
    (W2 m ρ c (Proc.devRef .tc main_v7) : S2048x1024.Idx → EReal) = Cert.ReferenceIdeal.Read.val_main_v7 (F := Ideal) (m ((c : Thread nD τ).loc main_arg1)) := by
  rw [W2_of_ne m ρ c main_v7 (by decide)]
  show StableHlo.after hostOps0 (W0 m ρ c) (Proc.devRef .tc main_v7) = _
  dsimp only [hostOps0]
  after_results
  rfl

/-- The image blocks of width 256 at the second region's entry. -/
theorem img256 (c : Dev nD) :
    (V3 m ρ c main_v37 : S2048x4x256.Idx → EReal) = Cert.ReferenceIdeal.Read.val_main_v40 (F := Ideal) (m ((c : Thread nD τ).loc main_arg0)) := by
  show StableHlo.after hostOps1 (W2 m ρ c) (Proc.devRef .tc main_v37) = _
  dsimp only [hostOps1]
  after_results
  rw [W2_arg0]
  rfl

/-- The caption blocks of width 256 at the second region's entry. -/
theorem cap256 (c : Dev nD) :
    (V3 m ρ c main_v46 : S2048x4x256.Idx → EReal) = Cert.ReferenceIdeal.Read.val_main_v49 (F := Ideal) (m ((c : Thread nD τ).loc main_arg1)) := by
  show StableHlo.after hostOps1 (W2 m ρ c) (Proc.devRef .tc main_v46) = _
  dsimp only [hostOps1]
  after_results
  rw [W2_v7]
  rfl

/-- The first kernel's output array at its region's exit. -/
theorem out0 (c : Dev nD) :
    (W2 m ρ c (Proc.devRef .tc main_v27) : S2048x2048.Idx → EReal)
      = regionSims (V := 8) (K := 128) (Cert.ReferenceIdeal.Read.val_main_v17 (F := Ideal) (m ((c : Thread nD τ).loc main_arg0)))
          (Cert.ReferenceIdeal.Read.val_main_v26 (F := Ideal) (m ((c : Thread nD τ).loc main_arg1))) := by
  refine (W2_arr m ρ c 2).trans ?_
  refine (Region0.final (V1 m ρ) c).trans ?_
  show regionSims (V := 8) (K := 128) (V1 m ρ c main_v17) (V1 m ρ c main_v26) = _
  rw [img128, cap128]

/-- The second kernel's output array at its region's exit. -/
theorem out1 (c : Dev nD) :
    (W4 m ρ c (Proc.devRef .tc main_v47) : S2048x2048.Idx → EReal)
      = regionSims (V := 4) (K := 256) (Cert.ReferenceIdeal.Read.val_main_v40 (F := Ideal) (m ((c : Thread nD τ).loc main_arg0)))
          (Cert.ReferenceIdeal.Read.val_main_v49 (F := Ideal) (m ((c : Thread nD τ).loc main_arg1))) := by
  refine (W4_arr m ρ c 2).trans ?_
  refine (Region1.final (V3 m ρ) c).trans ?_
  show regionSims (V := 4) (K := 256) (V3 m ρ c main_v37) (V3 m ρ c main_v46) = _
  rw [img256, cap256]

/-- The zero matrix the scores are added to, read at the first region's exit. -/
theorem zeros (c : Dev nD) (j : S2048x2048.Idx) : zeroMat m ρ c j = 0 := by
  show (W2 m ρ c (Proc.devRef .tc main_v8)) j = (0 : EReal)
  rw [W2_of_ne m ρ c main_v8 (by decide)]
  show StableHlo.after hostOps0 (W0 m ρ c) (Proc.devRef .tc main_v8) j = (0 : EReal)
  dsimp only [hostOps0]
  after_results
  show Ideal.ofBits .f32 0x00000000#32 = 0
  exact Ideal.ofBits_zero_f32

/-- The zero matrix plus the first kernel's output, read at the second region's exit (the second region does not write it). -/
theorem acc (c : Dev nD) (j : S2048x2048.Idx) :
    partialSum m ρ c j
      = regionSims (V := 8) (K := 128) (Cert.ReferenceIdeal.Read.val_main_v17 (F := Ideal) (m ((c : Thread nD τ).loc main_arg0)))
          (Cert.ReferenceIdeal.Read.val_main_v26 (F := Ideal) (m ((c : Thread nD τ).loc main_arg1))) j := by
  show (W4 m ρ c (Proc.devRef .tc main_v28)) j = _
  rw [W4_of_ne m ρ c main_v28 (by decide)]
  show StableHlo.after hostOps1 (W2 m ρ c) (Proc.devRef .tc main_v28) j = _
  dsimp only [hostOps1]
  after_results
  show zeroMat m ρ c j + firstOut m ρ c j = _
  rw [zeros, zero_add]
  exact congrFun (out0 m ρ c) j

/-- THE RESULT of the kernel program: entry by entry the width-128 score plus the width-256 score. -/
theorem result (c : Dev nD) :
    (W5 m ρ c (Proc.devRef .tc main_v48) : S2048x2048.Idx → EReal)
      = fun j => regionSims (V := 8) (K := 128) (Cert.ReferenceIdeal.Read.val_main_v17 (F := Ideal) (m ((c : Thread nD τ).loc main_arg0)))
            (Cert.ReferenceIdeal.Read.val_main_v26 (F := Ideal) (m ((c : Thread nD τ).loc main_arg1))) j
          + regionSims (V := 4) (K := 256) (Cert.ReferenceIdeal.Read.val_main_v40 (F := Ideal) (m ((c : Thread nD τ).loc main_arg0)))
            (Cert.ReferenceIdeal.Read.val_main_v49 (F := Ideal) (m ((c : Thread nD τ).loc main_arg1))) j := by
  funext j
  show StableHlo.after hostOps2 (W4 m ρ c) (Proc.devRef .tc main_v48) j = _
  dsimp only [hostOps2]
  after_results
  show partialSum m ρ c j + secondOut m ρ c j = _
  rw [acc]
  exact congrArg (_ + ·) (congrFun (out1 m ρ c) j)

end Cert.KernelIdeal.Result

end
-- ==== Proof.RefScores.lean ====
/-
  The reference's two score matrices, read at an entry.

  For block width 128 (8 blocks) and 256 (4 blocks) the reference multiplies every caption block with every image
  block (one `dot_general` contracting the entries of a block), reorders the four axes of the result to
  (image row, caption row, image block, caption block), takes the maximum over the image blocks from −∞ and adds over
  the caption blocks from 0.  At the extended reals −∞ is `⊥`, the neutral element of `max`, the sum from `0` is the
  finite sum, and a product does not depend on the order of its factors: each matrix is `Cert.Sims.regionSims` of the
  normalised image blocks and the normalised caption blocks.
-/
import proofs.«106075_j31164282700672_1_alg».proof.Proof.Gen.ReferenceIdeal.Run
import proofs.«106075_j31164282700672_1_alg».proof.Proof.Gen.ReferenceIdeal.Read
import proofs.«106075_j31164282700672_1_alg».proof.Proof.Spec
import Idealize.ShloMosaic.PureOps.Reduce

set_option maxRecDepth 16384

noncomputable section

open scoped BigOperators

namespace Cert.ReferenceIdeal.Scores

open Cert.ReferenceIdeal Cert.ReferenceIdeal.Gen Cert.ReferenceIdeal.Read Idealize.ShloMosaic Idealize.ShloMosaic.ValueIdx Cert.Sims

/-- −∞ as the reference's constant is the least extended real. -/
theorem neg_inf : Ideal.ofBits .f32 0xFF800000#32 = (⊥ : EReal) := by simp [Ideal.ofBits, Ideal.ieee]

/-- Width 128: the maximum over image blocks, at (image row a, caption row b, caption block t). -/
theorem max128_apply (x0 x1 : (⟨S2048x1024, .f32⟩ : BufTy).Contents (Elt Ideal)) (a b : Fin 2048) (t : Fin 8) :
    val_main_v29 (F := Ideal) x0 x1 (ix3 a b t)
      = (Finset.univ : Finset (Fin 8)).fold max ⊥ (fun v => blockDot (val_main_v17 (F := Ideal) x0) (val_main_v26 (F := Ideal) x1) a b v t) := by
  unfold val_main_v29
  rw [Host.reduce_eq_fold_single FloatOps.maximumf _ _ reducesTo_S2048x2048x8x8_S2048x2048x8_d2 (by decide) h_S_]
  rw [show (val_main_cst_6 (F := Ideal)) (Shape.Idx.first h_S_) = (⊥ : EReal) from neg_inf]
  refine congrArg (fun f => Finset.fold max ⊥ f (Finset.univ : Finset (Fin 8))) (funext fun v => ?_)
  show val_main_v28 (F := Ideal) x0 x1 _ = _
  rw [val_main_v28_apply, val_main_v27_apply]
  unfold blockDot
  refine Finset.sum_congr rfl fun k _ => ?_
  rw [mul_comm]
  exact congrArg₂ (· * ·)
    (congrArg _ (funext fun d => Fin.ext (by match d with | ⟨0, _⟩ => rfl | ⟨1, _⟩ => rfl | ⟨2, _⟩ => rfl)))
    (congrArg _ (funext fun d => Fin.ext (by match d with | ⟨0, _⟩ => rfl | ⟨1, _⟩ => rfl | ⟨2, _⟩ => rfl)))

/-- Width 128: the score matrix is the block similarity of the normalised blocks. -/
theorem scores128 (x0 x1 : (⟨S2048x1024, .f32⟩ : BufTy).Contents (Elt Ideal)) :
    val_main_v30 (F := Ideal) x0 x1 = regionSims (val_main_v17 (F := Ideal) x0) (val_main_v26 (F := Ideal) x1) := by
  funext i
  obtain ⟨a, b, rfl⟩ : ∃ (a b : Fin 2048), i = ix2 a b := ⟨i 0, i 1, eq_ix2 i⟩
  rw [val_main_v30_apply, regionSims_apply]
  unfold score
  rw [show (val_main_cst_7 (F := Ideal)) (Shape.Idx.first h_S_) = (0 : EReal) from Ideal.ofBits_zero_f32, zero_add]
  refine Finset.sum_congr rfl fun t _ => ?_
  exact (congrArg (val_main_v29 (F := Ideal) x0 x1)
    (funext fun d => Fin.ext (by match d with | ⟨0, _⟩ => rfl | ⟨1, _⟩ => rfl | ⟨2, _⟩ => rfl))).trans (max128_apply x0 x1 a b t)

/-- Width 256: the maximum over image blocks, at (image row a, caption row b, caption block t). -/
theorem max256_apply (x0 x1 : (⟨S2048x1024, .f32⟩ : BufTy).Contents (Elt Ideal)) (a b : Fin 2048) (t : Fin 4) :
    val_main_v52 (F := Ideal) x0 x1 (ix3 a b t)
      = (Finset.univ : Finset (Fin 4)).fold max ⊥ (fun v => blockDot (val_main_v40 (F := Ideal) x0) (val_main_v49 (F := Ideal) x1) a b v t) := by
  unfold val_main_v52
  rw [Host.reduce_eq_fold_single FloatOps.maximumf _ _ reducesTo_S2048x2048x4x4_S2048x2048x4_d2 (by decide) h_S_]
  rw [show (val_main_cst_12 (F := Ideal)) (Shape.Idx.first h_S_) = (⊥ : EReal) from neg_inf]
  refine congrArg (fun f => Finset.fold max ⊥ f (Finset.univ : Finset (Fin 4))) (funext fun v => ?_)
  show val_main_v51 (F := Ideal) x0 x1 _ = _
  rw [val_main_v51_apply, val_main_v50_apply]
  unfold blockDot
  refine Finset.sum_congr rfl fun k _ => ?_
  rw [mul_comm]
  exact congrArg₂ (· * ·)
    (congrArg _ (funext fun d => Fin.ext (by match d with | ⟨0, _⟩ => rfl | ⟨1, _⟩ => rfl | ⟨2, _⟩ => rfl)))
    (congrArg _ (funext fun d => Fin.ext (by match d with | ⟨0, _⟩ => rfl | ⟨1, _⟩ => rfl | ⟨2, _⟩ => rfl)))

/-- Width 256: the score matrix is the block similarity of the normalised blocks. -/
theorem scores256 (x0 x1 : (⟨S2048x1024, .f32⟩ : BufTy).Contents (Elt Ideal)) :
    val_main_v53 (F := Ideal) x0 x1 = regionSims (val_main_v40 (F := Ideal) x0) (val_main_v49 (F := Ideal) x1) := by
  funext i
  obtain ⟨a, b, rfl⟩ : ∃ (a b : Fin 2048), i = ix2 a b := ⟨i 0, i 1, eq_ix2 i⟩
  rw [val_main_v53_apply, regionSims_apply]
  unfold score
  rw [show (val_main_cst_13 (F := Ideal)) (Shape.Idx.first h_S_) = (0 : EReal) from Ideal.ofBits_zero_f32, zero_add]
  refine Finset.sum_congr rfl fun t _ => ?_
  exact (congrArg (val_main_v52 (F := Ideal) x0 x1)
    (funext fun d => Fin.ext (by match d with | ⟨0, _⟩ => rfl | ⟨1, _⟩ => rfl | ⟨2, _⟩ => rfl))).trans (max256_apply x0 x1 a b t)

/-- The reference's zero matrix is zero at every entry. -/
theorem zeros_apply (j : S2048x2048.Idx) : (val_main_v8 (F := Ideal)) j = (0 : EReal) := by
  show Ideal.ofBits .f32 0x00000000#32 = 0
  exact Ideal.ofBits_zero_f32

/-- The reference's result, entry by entry: the width-128 score plus the width-256 score (the zero matrix they are
    added to contributes nothing). -/
theorem result_eq (x0 x1 : (⟨S2048x1024, .f32⟩ : BufTy).Contents (Elt Ideal)) :
    val_main_v54 (F := Ideal) x0 x1
      = fun j => regionSims (val_main_v17 (F := Ideal) x0) (val_main_v26 (F := Ideal) x1) j
          + regionSims (val_main_v40 (F := Ideal) x0) (val_main_v49 (F := Ideal) x1) j := by
  funext j
  show (val_main_v8 (F := Ideal)) j + val_main_v30 (F := Ideal) x0 x1 j + val_main_v53 (F := Ideal) x0 x1 j = _
  rw [zeros_apply, zero_add, scores128, scores256]

end Cert.ReferenceIdeal.Scores

end
-- ==== Proof.lean ====
/-
  The kernel program and its reference compute the same score matrix over the extended reals.

  Both programs normalise the caption rows, cut image and caption rows into blocks (8 of width 128, then 4 of width
  256), normalise every block, and for each width form, for image row a and caption row b,
      score(a, b) = ∑ over caption blocks t of  max over image blocks v of  ⟨image block v of a, caption block t of b⟩,
  and return the sum of the two widths' scores added to a zero matrix.

  The reference does this with one contraction over the entries of a block, a reordering of axes, a maximum from −∞ and
  a sum from 0 (Proof/RefScores.lean).  The kernel program leaves the inner products, maxima and sums to two kernels,
  each run on a 4 × 4 grid of 512 × 512 tiles; one grid point multiplies slabs in a shorter float format, which at the
  extended reals is the identity, folds `max` over the image slabs and adds over the caption slabs into a zero tile
  (Proof/Body0.lean, Proof/Body1.lean); the tiles cover the result (Proof/Region0.lean, Proof/Region1.lean); the result
  buffer is read back through the program's host operations and regions to the arguments (Proof/KRun.lean,
  Proof/KResult.lean).  The two sides meet in `Cert.Sims.regionSims` (Proof/Spec.lean) of the same normalised blocks:
  the laws used are that `max` and `+` on the extended reals are commutative and associative with neutral elements `⊥`
  and `0`, and that a product does not depend on the order of its factors.  Finiteness of the inputs is not used.

  The three frames: the two kernel programs' are the generated ones; the reference's is its generated run with the result
  dropped.  No operation was rewritten by the idealization, so `preserves` states `True`.
-/
import proofs.«106075_j31164282700672_1_alg».proof.Defs
import proofs.«106075_j31164282700672_1_alg».proof.Proof.Gen.Kernel
import proofs.«106075_j31164282700672_1_alg».proof.Proof.Gen.Kernel.Frame
import proofs.«106075_j31164282700672_1_alg».proof.Proof.Gen.KernelIdeal
import proofs.«106075_j31164282700672_1_alg».proof.Proof.Gen.KernelIdeal.Frame
import proofs.«106075_j31164282700672_1_alg».proof.Proof.Gen.ReferenceIdeal
import proofs.«106075_j31164282700672_1_alg».proof.Proof.Gen.ReferenceIdeal.Run
import proofs.«106075_j31164282700672_1_alg».proof.Proof.Gen.ReferenceIdeal.Read
import proofs.«106075_j31164282700672_1_alg».proof.Proof.Gen.Pre_finite_inputs
import proofs.«106075_j31164282700672_1_alg».proof.Proof.KRun
import proofs.«106075_j31164282700672_1_alg».proof.Proof.KResult
import proofs.«106075_j31164282700672_1_alg».proof.Proof.RefScores
import Idealize.ShloMosaic.Adequacy
import Idealize.ShloMosaic.Init

set_option maxRecDepth 16384

noncomputable section

namespace Cert.Proof

open Idealize.ShloMosaic Idealize.SL.Sem Cert.Sims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the sum of the two widths' block similarities of the normalised blocks of the
    (agreeing) arguments. -/
theorem algebraic : Cert.algebraic_KernelIdeal_ReferenceIdeal := by
  intro m ρ m' ρ' _ hagree
  refine ⟨fun c => fun j =>
      regionSims (V := 8) (K := 128)
          (Cert.ReferenceIdeal.Read.val_main_v17 (F := Ideal) (m ((c.tc : Thread Cert.KernelIdeal.nD Cert.KernelIdeal.τ).loc Cert.KernelIdeal.main_arg0)))
          (Cert.ReferenceIdeal.Read.val_main_v26 (F := Ideal) (m ((c.tc : Thread Cert.KernelIdeal.nD Cert.KernelIdeal.τ).loc Cert.KernelIdeal.main_arg1))) j
        + regionSims (V := 4) (K := 256)
          (Cert.ReferenceIdeal.Read.val_main_v40 (F := Ideal) (m ((c.tc : Thread Cert.KernelIdeal.nD Cert.KernelIdeal.τ).loc Cert.KernelIdeal.main_arg0)))
          (Cert.ReferenceIdeal.Read.val_main_v49 (F := Ideal) (m ((c.tc : Thread Cert.KernelIdeal.nD Cert.KernelIdeal.τ).loc Cert.KernelIdeal.main_arg1))) j,
    ?_, ?_⟩
  · exact (θ_run Cert.KernelIdeal.defs _ _).mono
      (fun _ h c => ⟨(h c).1.trans (Cert.KernelIdeal.Result.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, Cert.ReferenceIdeal.Scores.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
